-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel

variable [Facts]

def fn {F : FTy → Type} [FloatOps F] (main_arg0 : FVec F S8x4096 .f32) (main_arg1 : FVec F S8x4096 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  main_v8
-- ==== Kernel.lean ====
abbrev S8x4096 : Shape := ⟨2, ![8, 4096]⟩
abbrev S8x4096x4096 : Shape := ⟨3, ![8, 4096, 4096]⟩
abbrev S8x128 : Shape := ⟨2, ![8, 128]⟩
abbrev S1x128x4096 : Shape := ⟨3, ![1, 128, 4096]⟩
abbrev S128x4096 : Shape := ⟨2, ![128, 4096]⟩
abbrev S1x128 : Shape := ⟨2, ![1, 128]⟩
abbrev S128 : Shape := ⟨1, ![128]⟩
abbrev S128x1 : Shape := ⟨2, ![128, 1]⟩
abbrev S1x4096 : Shape := ⟨2, ![1, 4096]⟩
abbrev S4096 : Shape := ⟨1, ![4096]⟩

abbrev nBuf : Space → Nat
  | .hbm => 3
  | .vmem => 5
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S8x4096x4096, .f32⟩
  | .local _ .vmem, ⟨0, _⟩ => ⟨S8x128, .f32⟩
  | .local _ .vmem, ⟨1, _⟩ => ⟨S8x128, .f32⟩
  | .local _ .vmem, ⟨2, _⟩ => ⟨S8x4096, .f32⟩
  | .local _ .vmem, ⟨3, _⟩ => ⟨S1x128x4096, .f32⟩
  | .local _ .vmem, ⟨4, _⟩ => ⟨S1x128x4096, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 32], ![false, false]⟩

def k0_off1 (i : grid0.Coords) : Fin 2 → Nat :=
  let arg0 : BitVec 32 := BitVec.ofNat 32 (i 0).val
  let v11 : Index := Scalar.indexCast arg0
  let c0 : Index := 0#32
  ![v11.toNat, 0]
def k0_off2 (i : grid0.Coords) : Fin 2 → Nat :=
  let arg0 : BitVec 32 := BitVec.ofNat 32 (i 0).val
  let v15 : Index := Scalar.indexCast arg0
  let c0_0 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  iota_S128x4096_d0_w32 : S128x4096.Iotas .tc 32 [0]
  iota_S128x4096_d1_w32 : S128x4096.Iotas .tc 32 [1]
  h_S1x128 : 0 < S1x128.numel
  shapeCasts_S1x128_S128 : S1x128.ShapeCasts S128
  shapeCasts_S128_S128x1 : S128.ShapeCasts S128x1
  h_S1x4096 : 0 < S1x4096.numel
  shapeCasts_S1x4096_S4096 : S1x4096.ShapeCasts S4096
  shapeCasts_S4096_S1x4096 : S4096.ShapeCasts S1x4096
  broadcasts_S128x1_S128x4096 : S128x1.Broadcasts S128x4096
  broadcasts_S1x4096_S128x4096 : S1x4096.Broadcasts S128x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  hrank0 : 0 < grid0.rank
  k0_off1_inb : ∀ i : grid0.Coords, ∀ a, (k0_off1 i) a + S1x128.size a ≤ S8x128.size a
  k0_off2_inb : ∀ i : grid0.Coords, ∀ a, (k0_off2 i) a + S1x4096.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S8x4096.size a
  hwx0_0 : ∀ i : grid0.Coords, EltTy.bits .f32 = 32 ∨ (Rect.block (s := S8x4096) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .f32 = 32 ∨ (Rect.block (s := S8x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S8x4096x4096.size a
  hwx0_2 : ∀ i : grid0.Coords, EltTy.bits .f32 = 32 ∨ (Rect.block (s := S8x4096x4096) S1x128x4096.size (cc0_transform_2 i) (hinb0_2 i)).WholeWords (EltTy.packing .f32)

variable [Facts₀]

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096 : Shape := ⟨2, ![8, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S1x4096x4096 : Shape := ⟨3, ![1, 4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S4096, .i32⟩
  | .hbm, ⟨3, _⟩ => ⟨S4096x1, .i32⟩
  | .hbm, ⟨4, _⟩ => ⟨S4096, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S_, .i32⟩
  | .hbm, ⟨13, _⟩ => ⟨S4096x4096, .i32⟩
  | .hbm, ⟨14, _⟩ => ⟨S4096x4096, .i1⟩
  | .hbm, ⟨15, _⟩ => ⟨S4096x4096, .i1⟩
  | .hbm, ⟨16, _⟩ => ⟨S8x4096x1, .f32⟩
  | .hbm, ⟨17, _⟩ => ⟨S8x1x4096, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S1x4096x4096, .i1⟩
  | .hbm, ⟨22, _⟩ => ⟨S_, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  bcast_S_S8x4096x4096 : S_.BroadcastsInDim S8x4096x4096 (![] : Fin 0 → Fin S8x4096x4096.rank)

variable [Facts₀]

class Facts : Prop extends Facts₀ where

variable [Facts]
-- ==== Proof.BandSpec.lean ====
/-
  The banded outer product as ONE function of the two argument arrays.

  For `s, e : [8, 4096]` over the extended reals the result `[8, 4096, 4096]` holds, at `(b, i, j)`, the product
  `s[b, i] · e[b, j]` where `j` lies in the band `i ≤ j ≤ i + 15` above the diagonal, and `0` everywhere else. The
  entry is CHOSEN by the band test (a selection, not a product with a 0/1 mask), so nothing is asked of the
  factors: an infinite `s[b, i]` outside the band still gives `0`.

  Both programs decide the band on 32-bit words. One compares the column index with the row index and then
  their difference with 15; the other forms the row index as `r + 128 q` from a row `r` inside block `q` of
  128 rows and compares the difference `j - (r + 128 q)` with 0 and with 15. All the numbers involved stay below
  4096 in absolute value, far from where 32-bit arithmetic wraps, so each word test is the band test on naturals.
-/
import Idealize.ShloMosaic.PureOps.Ideal
import Idealize.ShloMosaic.PureOps.Ideal.Laws
import Idealize.ShloMosaic.Lib.ValueIdx
import Idealize.ShloMosaic.Lib.Affine

noncomputable section

namespace Cert.BandOuter

open Idealize.ShloMosaic Idealize.ShloMosaic.ValueIdx

/-- Column `j` is in the band of row `i`: on or above the diagonal, at most 15 columns to its right. -/
def Band (i j : ℕ) : Prop := i ≤ j ∧ j ≤ i + 15

instance (i j : ℕ) : Decidable (Band i j) := by unfold Band; infer_instance

/-- The signed reading of a small natural's 32-bit word is the natural. -/
theorem toInt_ofNat_small (n : ℕ) (h : n < 2 ^ 31) : (BitVec.ofNat 32 n).toInt = n := by
  rw [BitVec.toInt_eq_toNat_cond, BitVec.toNat_ofNat]
  have hn : n % 2 ^ 32 = n := Nat.mod_eq_of_lt (by omega)
  rw [hn, if_pos (by omega)]

/-- The word test "column ≥ row, and column − row ≤ 15" is the band test. -/
theorem wordTest_rowcol (i j : ℕ) (hi : i < 4096) (hj : j < 4096) :
    IntOp.andi (IntOp.cmpi .sge (BitVec.ofNat 32 j) (BitVec.ofNat 32 i))
        (IntOp.cmpi .sle (IntOp.subi (BitVec.ofNat 32 j) (BitVec.ofNat 32 i)) 15#32) = 1#1 ↔ Band i j := by
  rw [IntOp.andi_eq_one, IntOp.cmpi_sge, IntOp.cmpi_sle]
  unfold IntOp.subi Band
  rw [BitVec.toInt_sub, toInt_ofNat_small i (by omega), toInt_ofNat_small j (by omega)]
  have h15 : (15#32 : BitVec 32).toInt = 15 := by decide
  rw [h15, Int.bmod_eq_of_le (by omega) (by omega)]
  omega

/-- The word test "0 ≤ column − (r + 128 q) ≤ 15", the row index formed from row `r` of block `q`, is the band
    test at row `128 q + r`. -/
theorem wordTest_block (q r j : ℕ) (hq : q < 32) (hr : r < 128) (hj : j < 4096) :
    IntOp.andi
        (IntOp.cmpi .sge (IntOp.subi (BitVec.ofNat 32 j) (IntOp.addi (BitVec.ofNat 32 r) (Scalar.muli (BitVec.ofNat 32 q) 128#32))) 0#32)
        (IntOp.cmpi .sle (IntOp.subi (BitVec.ofNat 32 j) (IntOp.addi (BitVec.ofNat 32 r) (Scalar.muli (BitVec.ofNat 32 q) 128#32))) 15#32)
      = 1#1 ↔ Band (q * 128 + r) j := by
  have hrow : IntOp.addi (BitVec.ofNat 32 r) (Scalar.muli (BitVec.ofNat 32 q) 128#32) = BitVec.ofNat 32 (q * 128 + r) := by
    unfold IntOp.addi Scalar.muli IntOp.muli
    apply BitVec.eq_of_toNat_eq
    simp only [BitVec.toNat_add, BitVec.toNat_mul, BitVec.toNat_ofNat]
    omega
  rw [hrow, IntOp.andi_eq_one, IntOp.cmpi_sge, IntOp.cmpi_sle]
  unfold IntOp.subi Band
  rw [BitVec.toInt_sub, toInt_ofNat_small (q * 128 + r) (by omega), toInt_ofNat_small j (by omega)]
  have h15 : (15#32 : BitVec 32).toInt = 15 := by decide
  have h0 : (0#32 : BitVec 32).toInt = 0 := by decide
  rw [h15, h0, Int.bmod_eq_of_le (by omega) (by omega)]
  omega

/-- One entry of the banded outer product: `s[b, i] · e[b, j]` inside the band, `0` outside. -/
def entry (s e : (⟨2, ![8, 4096]⟩ : Shape).Idx → EReal) (b : Fin 8) (i j : Fin 4096) : EReal :=
  if Band i.val j.val then s (ix2 b i) * e (ix2 b j) else 0

/-- The banded outer product of two `[8, 4096]` arrays: the `[8, 4096, 4096]` array of its entries. -/
def bandOuter (s e : (⟨2, ![8, 4096]⟩ : Shape).Idx → EReal) : (⟨3, ![8, 4096, 4096]⟩ : Shape).Idx → EReal :=
  fun k => entry s e (k 0) (k 1) (k 2)

theorem bandOuter_ix3 (s e : (⟨2, ![8, 4096]⟩ : Shape).Idx → EReal) (b : Fin 8) (i j : Fin 4096) :
    bandOuter s e (ix3 b i j) = entry s e b i j := rfl

/-- A selection on a one-bit word that is `1` exactly in the band is the entry. -/
theorem select_eq_entry (c : BitVec 1) (s e : (⟨2, ![8, 4096]⟩ : Shape).Idx → EReal) (b : Fin 8) (i j : Fin 4096)
    (hc : c = 1#1 ↔ Band i.val j.val) :
    Scalar.select c (s (ix2 b i) * e (ix2 b j)) (Ideal.ofBits .f32 0x00000000#32) = entry s e b i j := by
  unfold Scalar.select entry
  rw [Ideal.ofBits_zero_f32]
  exact if_congr hc rfl rfl

end Cert.BandOuter

end
-- ==== Proof.LibKeepdims.lean ====
/-
  Two layout operations on a COLUMN, read at an index given by coordinates.

  A vector `[a]` viewed as a column `[a, 1]` keeps its entries (entry `(p, ·)` is entry `p`), and a column `[a, 1]`
  broadcast along a new minor axis to `[a, b]` repeats each entry along its row (entry `(p, c)` is entry `(p, 0)`).
  Both are instances of the general index lemmas for a shape cast (equal row-major positions) and a broadcast
  (the operand's unit axes read at 0), with the coordinates written out so that a rewrite applies them.
-/
import Idealize.ShloMosaic.Lib.Pipeline.Value
import Idealize.ShloMosaic.Lib.ValueIdx

namespace Idealize.ShloMosaic.ValueIdx

open Idealize.ShloMosaic

variable {α : Type}

/-- An `[a]` array cast to a column `[a, 1]` reads, at `(p, z)`, the operand at `p`, whatever the unit coordinate `z`:
    both sit at row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_one, Shape.rowMajor_val_two]
    show p.val = p.val * 1 + z.val
    rw [hz, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BandTile.lean ====
/-
  What one grid point of the banded-outer-product kernel leaves in its output block.

  At grid point `(b, q)` the body reads row `b` of the staged `[8, 128]` block of `s` (positions `128 q … 128 q + 127`
  of the sequence axis) and row `b` of the whole staged `e`, and stores ONE `[1, 128, 4096]` block: entry `(·, r, j)` is
  the product of the `r`-th loaded `s` value and the `j`-th loaded `e` value where `j` is in the band of the
  absolute row `128 q + r`, and `0` elsewhere. The row index is computed on 32-bit words as `r + 128 q`; the band
  test on those words is the test on naturals.
-/
import proofs.«400699_j55508157334088_3_alg».proof.Proof.Gen.KernelIdeal.Frame
import proofs.«400699_j55508157334088_3_alg».proof.Proof.BandSpec
import proofs.«400699_j55508157334088_3_alg».proof.Proof.LibKeepdims
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem

namespace Cert.KernelIdeal.BandValue

open Cert.KernelIdeal Cert.KernelIdeal.Gen Idealize.ShloMosaic.ValueIdx Cert.BandOuter

variable {F : FTy → Type} [FloatOps F]

theorem zeros3 : (![0, 0, 0] : Fin 3 → Nat) = fun _ => 0 := funext fun a => by fin_cases a <;> rfl

/-- The body's one store covers the output block, so the block ends at the store's payload: the band-selected
    products of the row of `s` and the row of `e` the two loads read. -/
theorem block_eq_payload (c : Dev nD) (i : grid0.Coords) (a2 : Memref sig .tc .vmem S8x128 .f32) (h2 : a2.IsWhole)
    (a3 : Memref sig .tc .vmem S8x4096 .f32) (h3 : a3.IsWhole) (a4 : Memref sig .tc .vmem S1x128x4096 .f32) (h4 : a4.IsWhole)
    (x0 : Vec F S8x128 .f32) (x1 : Vec F S8x4096 .f32) :
    out0_A_2 c i a2 h2 a3 h3 a4 h4 x0 x1
      = k0_pay1 i (View.ld x0 (Rect.unit (s := S8x128) (k0_off1 i) S1x128.size (k0_off1_inb i)))
          (View.ld x1 (Rect.unit (s := S8x4096) (k0_off2 i) S1x4096.size (k0_off2_inb i))) := by
  unfold out0_A_2
  rw [View.read_writes_eq_canon _ _ _ (cover0_A_2 c i a2 h2 a3 h3 a4 h4 x0 x1)]
  unfold kernelRun0_A
  dsimp only
  sl_unfold_words
  rw [View.canon_unit_zero zeros3]
  simp only [View.readAt_eq_ld, h2.read_unread, h3.read_unread]

/-- The band test as the body computes it for the `[128, 4096]` tile of row block `q`: one bit per entry, from the
    difference of the column index and the row index `r + 128 q`. -/
abbrev tileMask (q : ℕ) : IVec S128x4096 1 :=
  andi
    (cmpi .sge
      (subi (iota .tc S128x4096 32 [1] iota_S128x4096_d1_w32)
        (addi (iota .tc S128x4096 32 [0] iota_S128x4096_d0_w32) (broadcast S128x4096 (Scalar.muli (BitVec.ofNat 32 q) 128#32))))
      (broadcast S128x4096 0#32))
    (cmpi .sle
      (subi (iota .tc S128x4096 32 [1] iota_S128x4096_d1_w32)
        (addi (iota .tc S128x4096 32 [0] iota_S128x4096_d0_w32) (broadcast S128x4096 (Scalar.muli (BitVec.ofNat 32 q) 128#32))))
      (broadcast S128x4096 15#32))

/-- Entry `(r, j)` of the tile's mask is set exactly when column `j` is in the band of row `128 q + r`. -/
theorem tileMask_apply (q : ℕ) (hq : q < 32) (r : Fin 128) (j : Fin 4096) :
    tileMask q (ix2 r j) = 1#1 ↔ Band (q * 128 + r.val) j.val := by
  show IntOp.andi
      (IntOp.cmpi .sge (IntOp.subi (iota .tc S128x4096 32 [1] iota_S128x4096_d1_w32 (ix2 r j))
        (IntOp.addi (iota .tc S128x4096 32 [0] iota_S128x4096_d0_w32 (ix2 r j)) (Scalar.muli (BitVec.ofNat 32 q) 128#32))) 0#32)
      (IntOp.cmpi .sle (IntOp.subi (iota .tc S128x4096 32 [1] iota_S128x4096_d1_w32 (ix2 r j))
        (IntOp.addi (iota .tc S128x4096 32 [0] iota_S128x4096_d0_w32 (ix2 r j)) (Scalar.muli (BitVec.ofNat 32 q) 128#32))) 15#32)
      = 1#1 ↔ _
  rw [iota_single_apply, iota_single_apply]
  exact wordTest_block q r.val j.val hq r.isLt j.isLt

/-- The payload at an entry of the block, over the extended reals: the `r`-th loaded value of `s` times the `j`-th
    loaded value of `e` in the band of absolute row `128 q + r` (`q` the point's second coordinate), else `0`. -/
theorem payload_apply (i : grid0.Coords) (srow : Vec Ideal S1x128 .f32) (erow : Vec Ideal S1x4096 .f32)
    (u : Fin 1) (r : Fin 128) (j : Fin 4096) :
    k0_pay1 (F := Ideal) i srow erow (ix3 u r j)
      = if Band ((i 1).val * 128 + r.val) j.val then srow (ix2 (0 : Fin 1) r) * erow (ix2 (0 : Fin 1) j) else 0 := by
  unfold k0_pay1
  dsimp only
  rw [shapeCast_ab_1ab_apply, select_apply, mulf_apply, broadcastTo_a1_ab_apply, shapeCast_a_a1_apply, shapeCast_1a_a_apply,
    broadcastTo_1b_ab_apply, shapeCast_a_1a_apply, shapeCast_1a_a_apply]
  show Scalar.select (tileMask (i 1).val (ix2 r j)) (srow (ix2 (0 : Fin 1) r) * erow (ix2 (0 : Fin 1) j)) (Ideal.ofBits .f32 0x00000000#32) = _
  unfold Scalar.select
  rw [Ideal.ofBits_zero_f32]
  exact if_congr (tileMask_apply (i 1).val (i 1).isLt r j) rfl rfl

end Cert.KernelIdeal.BandValue

end
-- ==== Proof.BandArray.lean ====
/-
  From the blocks to the array: the kernel's result is the banded outer product.

  The grid has 8 × 32 points `(b, q)`. Point `(b, q)` reads row `b` of the `[8, 128]` block `q` of `s` and row `b` of
  `e`, and writes back the `[1, 128, 4096]` block `(b, q, 0)` of the result. By the tile computation the entry
  `(·, r, j)` of that block is `s[b, 128 q + r] · e[b, j]` inside the band of row `128 q + r` and `0` outside, which is
  the entry `(b, 128 q + r, j)` of the banded outer product: every point writes ITS block of that one array. The 256
  blocks tile the `[8, 4096, 4096]` result (entry `(b, i, j)` lies in the block of point `(b, i / 128)`), so after
  the run the result array is the banded outer product of the two arguments.
-/
import proofs.«400699_j55508157334088_3_alg».proof.Proof.Gen.KernelIdeal.Value
import proofs.«400699_j55508157334088_3_alg».proof.Proof.BandTile

noncomputable section

open Idealize.ShloMosaic Idealize.ShloMosaic.TcCoe Idealize.SL.Sem
open Idealize.ShloMosaic.Pipeline (Dat)

namespace Cert.KernelIdeal.BandValue

open Cert.KernelIdeal Cert.KernelIdeal.Gen Cert.KernelIdeal.Value Idealize.ShloMosaic.ValueIdx Cert.BandOuter

variable (m : (ℓ : Loc nD τ sig) → Buf (Elt Ideal) ℓ) (ρ : Dev nD → PrngReg)

/-- The index maps and load offsets at every grid point, in terms of the point's coordinates `(b, q)`: the block of
    `s` is `(0, q)`, of `e` is `(0, 0)`, of the result `(b, q, 0)`; both loads start at row `b`, column 0. -/
theorem idx_facts : ∀ t : Fin cfg0.N,
    win0_0.index t (0 : Fin 2) = 0 ∧ win0_0.index t (1 : Fin 2) = (grid0.coords t 1).val
    ∧ win0_1.index t (0 : Fin 2) = 0 ∧ win0_1.index t (1 : Fin 2) = 0
    ∧ win0_2.index t (0 : Fin 3) = (grid0.coords t 0).val ∧ win0_2.index t (1 : Fin 3) = (grid0.coords t 1).val
    ∧ win0_2.index t (2 : Fin 3) = 0
    ∧ k0_off1 (grid0.coords t) (0 : Fin 2) = (grid0.coords t 0).val ∧ k0_off1 (grid0.coords t) (1 : Fin 2) = 0
    ∧ k0_off2 (grid0.coords t) (0 : Fin 2) = (grid0.coords t 0).val ∧ k0_off2 (grid0.coords t) (1 : Fin 2) = 0
    ∧ (grid0.coords t 0).val < 8 ∧ (grid0.coords t 1).val < 32 :=
  (by decide +kernel : ∀ t : Fin grid0.N, _)

/-- Every block `(b, q, 0)` of the result is some grid point's. -/
theorem idx_onto : ∀ (q0 : Fin 8) (q1 : Fin 32), ∃ t : Fin cfg0.N, win0_2.index t = ![q0.val, q1.val, 0] :=
  (by decide +kernel : ∀ (q0 : Fin 8) (q1 : Fin 32), ∃ t : Fin grid0.N, win0_2.index t = ![q0.val, q1.val, 0])

/-- What point `t` writes back is block `t` of the banded outer product of the argument arrays. -/
theorem flushed_eq (c : Dev nD) (t : Fin cfg0.N) :
    (dats m 0 c).flushed 2 t
      = ((cfg0.win 2).blk t).view.read (Elt Ideal) (bandOuter (V m c main_arg0) (V m c main_arg1)) := by
  refine (flushed2_A m c t).trans ?_
  refine (congrArg ((cfg0.win 2).cut (grid0.coords t)) (block_eq_payload (F := Ideal) c (grid0.coords t) (ms0_0 t) (hs0_0 t)
    (ms0_1 t) (hs0_1 t) (ms0_2 t) (hs0_2 t) (iblk m c 0 t) (iblk m c 1 t))).trans ?_
  obtain ⟨e00, e01, e10, e11, e20, e21, e22, o10, o11, o20, o21, hb, hq⟩ := idx_facts t
  funext y
  obtain ⟨u, r, j, rfl⟩ : ∃ (u : Fin 1) (r : Fin 128) (j : Fin 4096), y = ix3 u r j := ⟨y 0, y 1, y 2, eq_ix3 y⟩
  have hu : u.val = 0 := by omega
  have hr : r.val < 128 := r.isLt
  refine (payload_apply (grid0.coords t) _ _ u r j).trans ?_
  -- the batch row and the absolute row of this entry
  let B : Fin 8 := ⟨(grid0.coords t 0).val, hb⟩
  let I : Fin 4096 := ⟨(grid0.coords t 1).val * 128 + r.val, by omega⟩
  -- the loaded value of `s` is `s[b, 128 q + r]`
  have hs : View.ld (iblk m c 0 t) (Rect.unit (s := S8x128) (k0_off1 (grid0.coords t)) S1x128.size (k0_off1_inb (grid0.coords t)))
      (ix2 (0 : Fin 1) r) = V m c main_arg0 (ix2 B I) := by
    show V m c main_arg0 (((cfg0.win 0).blk t).view.emb
      ((Rect.unit (s := S8x128) (k0_off1 (grid0.coords t)) S1x128.size (k0_off1_inb (grid0.coords t))).emb (ix2 (0 : Fin 1) r))) = _
    refine congrArg (V m c main_arg0) (funext fun a => Fin.ext ?_)
    match a with
    | ⟨0, _⟩ =>
      show win0_0.index t (0 : Fin 2) * 8 + 1 * (k0_off1 (grid0.coords t) (0 : Fin 2) + 1 * 0) = (grid0.coords t 0).val
      omega
    | ⟨1, _⟩ =>
      show win0_0.index t (1 : Fin 2) * 128 + 1 * (k0_off1 (grid0.coords t) (1 : Fin 2) + 1 * r.val) = (grid0.coords t 1).val * 128 + r.val
      omega
  -- the loaded value of `e` is `e[b, j]`
  have he : View.ld (iblk m c 1 t) (Rect.unit (s := S8x4096) (k0_off2 (grid0.coords t)) S1x4096.size (k0_off2_inb (grid0.coords t)))
      (ix2 (0 : Fin 1) j) = V m c main_arg1 (ix2 B j) := by
    show V m c main_arg1 (((cfg0.win 1).blk t).view.emb
      ((Rect.unit (s := S8x4096) (k0_off2 (grid0.coords t)) S1x4096.size (k0_off2_inb (grid0.coords t))).emb (ix2 (0 : Fin 1) j))) = _
    refine congrArg (V m c main_arg1) (funext fun a => Fin.ext ?_)
    match a with
    | ⟨0, _⟩ =>
      show win0_1.index t (0 : Fin 2) * 8 + 1 * (k0_off2 (grid0.coords t) (0 : Fin 2) + 1 * 0) = (grid0.coords t 0).val
      omega
    | ⟨1, _⟩ =>
      show win0_1.index t (1 : Fin 2) * 4096 + 1 * (k0_off2 (grid0.coords t) (1 : Fin 2) + 1 * j.val) = j.val
      omega
  -- the entry sits at `(b, 128 q + r, j)` of the array
  have hk : ((cfg0.win 2).blk t).view.emb (ix3 u r j) = ix3 B I j := by
    funext a; apply Fin.ext
    match a with
    | ⟨0, _⟩ => show win0_2.index t (0 : Fin 3) * 1 + 1 * u.val = (grid0.coords t 0).val; omega
    | ⟨1, _⟩ => show win0_2.index t (1 : Fin 3) * 128 + 1 * r.val = (grid0.coords t 1).val * 128 + r.val; omega
    | ⟨2, _⟩ => show win0_2.index t (2 : Fin 3) * 4096 + 1 * j.val = j.val; omega
  rw [hs, he]
  show _ = bandOuter (V m c main_arg0) (V m c main_arg1) (((cfg0.win 2).blk t).view.emb (ix3 u r j))
  rw [hk, bandOuter_ix3]
  rfl

/-- An index of the result array is in point `t`'s block iff each coordinate is in the block's range on its axis. -/
theorem mem_blk (t : Fin cfg0.N) (i : S8x4096x4096.Idx) :
    i ∈ ((cfg0.win 2).blk t).view.set ↔ ∀ a : Fin 3, win0_2.index t a * S1x128x4096.size a ≤ (i a).val
      ∧ (i a).val < win0_2.index t a * S1x128x4096.size a + S1x128x4096.size a := by
  show i ∈ ((View.whole main_v0).slice (win0_2.rect t)).set ↔ _
  rw [View.set_slice_whole, Rect.mem_set_unit]
  exact Iff.rfl

/-- The blocks tile the array: entry `(b, i, j)` lies in the block of the point `(b, i / 128)`. -/
theorem cover (i : S8x4096x4096.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 4096 := (i 2).isLt
  obtain ⟨t, ht⟩ := idx_onto ⟨(i 0).val, hi0⟩ ⟨(i 1).val / 128, by omega⟩
  have q0 : win0_2.index t (0 : Fin 3) = (i 0).val := congrFun ht 0
  have q1 : win0_2.index t (1 : Fin 3) = (i 1).val / 128 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 4096 ≤ (i 2).val ∧ (i 2).val < win0_2.index t (2 : Fin 3) * 4096 + 4096; omega

/-- After the run the result array is the banded outer product of the argument arrays. -/
theorem final (c : Dev nD) :
    (dats m 0 c).arrAt 2 cfg0.N = bandOuter (m ((c : Thread nD τ).loc main_arg0)) (m ((c : Thread nD τ).loc main_arg1)) :=
  (dats m 0 c).arrAt_eq_of_cover 2 (bandOuter (V m c main_arg0) (V m c main_arg1)) (fun t _ => flushed_eq m c t) cover

/-- The kernel's run: every weakly fair execution terminates with the result array at the banded outer product of the
    arguments, and the arguments unchanged. -/
theorem run : θ_run defs (onTc (τ := τ) (main (F := Ideal))) ⟨m, fun _ => 0, ρ⟩ fun r => ∀ c : Dev nD,
      r.2.mem ((c : Thread nD τ).loc main_v0) = bandOuter (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.BandValue

end
-- ==== Proof.BandReference.lean ====
/-
  The reference computes the banded outer product.

  Read one operation at a time at an index `(b, i, j)`: the two index vectors `arange(4096)` are broadcast to the
  `[4096, 4096]` grids of row indices `i` and column indices `j`; the mask is "`j ≥ i` and `j − i ≤ 15`" on 32-bit
  words, which is the band test on naturals; `s` and `e` are broadcast to `s[b, i]` and `e[b, j]` and multiplied; the
  final selection keeps the product where the mask is set and puts `0` elsewhere.
-/
import proofs.«400699_j55508157334088_3_alg».proof.Proof.Gen.ReferenceIdeal.Read
import proofs.«400699_j55508157334088_3_alg».proof.Proof.BandSpec
import Idealize.ShloMosaic.Lib.ValueIdx

noncomputable section

namespace Cert.ReferenceIdeal.BandRef

open Cert.ReferenceIdeal Cert.ReferenceIdeal.Read Idealize.ShloMosaic Idealize.ShloMosaic.ValueIdx Cert.BandOuter

/-- Through its two broadcasts, `s` is read at `(b, i)`. -/
theorem idx_s (b : Fin 8) (i j : Fin 4096) : idx_main_v13 (idx_main_v15 (ix3 b i j)) = ix2 b i :=
  funext fun a => Fin.ext (by match a with | ⟨0, _⟩ => rfl | ⟨1, _⟩ => rfl)

/-- Through its two broadcasts, `e` is read at `(b, j)`. -/
theorem idx_e (b : Fin 8) (i j : Fin 4096) : idx_main_v14 (idx_main_v16 (ix3 b i j)) = ix2 b j :=
  funext fun a => Fin.ext (by match a with | ⟨0, _⟩ => rfl | ⟨1, _⟩ => rfl)

/-- Through its two broadcasts over the batch axis, the mask is read at `(i, j)`. -/
theorem idx_mask (b : Fin 8) (i j : Fin 4096) : idx_main_v18 (idx_main_call0_v0 (ix3 b i j)) = ix2 i j :=
  funext fun a => Fin.ext (by match a with | ⟨0, _⟩ => rfl | ⟨1, _⟩ => rfl)

/-- The reference's mask at `(i, j)` is set exactly when column `j` is in the band of row `i`. -/
theorem mask_apply (i j : Fin 4096) : val_main_v12 (F := Ideal) (ix2 i j) = 1#1 ↔ Band i.val j.val := by
  simp only [val_main_v12_apply, val_main_v6_apply, val_main_v11_apply, val_main_v9_apply, val_main_v4_apply,
    val_main_v5_apply, val_main_v7_apply, val_main_v8_apply, val_main_v10_apply, val_main_v3_apply, val_main_v1_apply,
    val_main_v2_apply, val_main_v0_apply, val_main_c_apply]
  exact wordTest_rowcol i.val j.val i.isLt j.isLt

/-- The reference's result, as a function of its two arguments over the extended reals, is the banded outer product. -/
theorem result_eq (x0 x1 : S8x4096.Idx → EReal) : val_main_v19 (F := Ideal) x0 x1 = bandOuter x0 x1 := by
  funext k
  obtain ⟨b, i, j, rfl⟩ : ∃ (b : Fin 8) (i j : Fin 4096), k = ix3 b i j := ⟨k 0, k 1, k 2, eq_ix3 k⟩
  rw [bandOuter_ix3, val_main_v19_apply, val_main_call0_v0_apply, val_main_v18_apply, val_main_v17_apply, val_main_v15_apply,
    val_main_v16_apply, val_main_v13_apply, val_main_v14_apply, val_main_call0_v1_apply, val_main_cst_apply,
    idx_s, idx_e, idx_mask]
  exact select_eq_entry _ x0 x1 b i j (mask_apply i j)

end Cert.ReferenceIdeal.BandRef

end
-- ==== Proof.lean ====
/-
  A banded outer product, tiled over the batch and the rows, against its dense reference.

  For `s, e : f32[8, 4096]` both programs produce `out : f32[8, 4096, 4096]` with
  `out[b, i, j] = s[b, i] · e[b, j]` where `0 ≤ j − i ≤ 15`, and `0` elsewhere.

  The kernel runs on a grid of 8 × 32 points. Point `(b, q)` takes row `b` of the 128 values `s[·, 128 q …]` and row
  `b` of `e`, forms the `128 × 4096` tile of products, keeps an entry where the column index minus the absolute row
  index `r + 128 q` lies in `[0, 15]` and puts `0` elsewhere, and writes the tile back as block `(b, q, 0)` of the
  result. The reference builds the `4096 × 4096` mask "`j ≥ i` and `j − i ≤ 15`" once, the full product array, and
  selects. Over the extended reals the two agree entry by entry with no condition on the inputs: an entry is
  CHOSEN by the band test, never multiplied by it, so an infinite factor outside the band cannot matter, and the
  only arithmetic facts used are that the two 32-bit word tests are the band test on naturals (all numbers stay
  below 4096 in absolute value). The blocks of the 256 points tile the result, so the kernel's array is the banded
  outer product too.

  The idealization rewrote nothing (its ledger is empty), so that conjunct is `True`. The two kernel frames are the
  generated frames; the reference's frame is its generated run with the result dropped.
-/
import proofs.«400699_j55508157334088_3_alg».proof.Defs
import proofs.«400699_j55508157334088_3_alg».proof.Proof.Gen.Kernel
import proofs.«400699_j55508157334088_3_alg».proof.Proof.Gen.Kernel.Skeleton
import proofs.«400699_j55508157334088_3_alg».proof.Proof.Gen.Kernel.Launch
import proofs.«400699_j55508157334088_3_alg».proof.Proof.Gen.Kernel.Points
import proofs.«400699_j55508157334088_3_alg».proof.Proof.Gen.Kernel.Frame
import proofs.«400699_j55508157334088_3_alg».proof.Proof.Gen.KernelIdeal
import proofs.«400699_j55508157334088_3_alg».proof.Proof.Gen.KernelIdeal.Skeleton
import proofs.«400699_j55508157334088_3_alg».proof.Proof.Gen.KernelIdeal.Launch
import proofs.«400699_j55508157334088_3_alg».proof.Proof.Gen.KernelIdeal.Points
import proofs.«400699_j55508157334088_3_alg».proof.Proof.Gen.KernelIdeal.Frame
import proofs.«400699_j55508157334088_3_alg».proof.Proof.Gen.ReferenceIdeal
import proofs.«400699_j55508157334088_3_alg».proof.Proof.Gen.Pre_finite_inputs
import proofs.«400699_j55508157334088_3_alg».proof.Proof.Gen.KernelIdeal.Value
import proofs.«400699_j55508157334088_3_alg».proof.Proof.Gen.ReferenceIdeal.Run
import proofs.«400699_j55508157334088_3_alg».proof.Proof.Gen.ReferenceIdeal.Read
import proofs.«400699_j55508157334088_3_alg».proof.Proof.BandArray
import proofs.«400699_j55508157334088_3_alg».proof.Proof.BandReference
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `s` and `e`, the kernel's result array and the reference's are both the banded outer
    product of `s` and `e`. -/
theorem algebraic : Cert.algebraic_KernelIdeal_ReferenceIdeal := by
  intro m ρ m' ρ' _ hagree
  refine ⟨_, Cert.KernelIdeal.BandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.BandRef.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
